-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1600 : Shape := ⟨2, ![1024, 1600]⟩
abbrev S64x1600 : Shape := ⟨2, ![64, 1600]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S1024x1600 : S_.BroadcastsInDim S1024x1600 (![] : Fin 0 → Fin S1024x1600.rank)
  reducesTo_S1024x1600_S_d0_1 : S1024x1600.ReducesTo [0, 1] S_
  h_S_ : 0 < S_.numel
  bcast_S_S64x1600 : S_.BroadcastsInDim S64x1600 (![] : Fin 0 → Fin S64x1600.rank)
  reducesTo_S64x1600_S_d0_1 : S64x1600.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32x64 .f32) (main_arg5 : FVec F S32 .f32) (main_arg6 : FVec F S1x32 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1x32 .f32 := Host.absf main_arg6
  let main_cst_10 : FVec F S_ .f32 := constant S_ .f32 0x7F800000#32
  let main_v30 : FVec F S1x32 .f32 := broadcastInDim S1x32 ![] bcast_S_S1x32 main_cst_10
  let main_v31 : IVec S1x32 1 := cmpf .olt main_v29 main_v30
  let main_c_11 : IVec S_ 1 := constantI S_ 1 1#1
  let main_v32 : IVec S_ 1 := (fun x v => Host.reduce IntOp.andi x v reducesTo_S1x32_S_d0_1 h_S_) main_v31 main_c_11
  let main_v33 : IVec S_ 1 := andi main_v28 main_v32
  fn_part2 (F := F) main_arg7 main_v33

def fn {F : FTy → Type} [FloatOps F] (main_arg0 : FVec F S1024x1600 .f32) (main_arg1 : FVec F S1024x1600 .f32) (main_arg2 : FVec F S64x1600 .f32) (main_arg3 : FVec F S64 .f32) (main_arg4 : FVec F S32x64 .f32) (main_arg5 : FVec F S32 .f32) (main_arg6 : FVec F S1x32 .f32) (main_arg7 : FVec F S1 .f32) : IVec S_ 1 :=
  let main_v0 : FVec F S1024x1600 .f32 := Host.absf main_arg0
  let main_cst : FVec F S_ .f32 := constant S_ .f32 0x7F800000#32
  let main_v1 : FVec F S1024x1600 .f32 := broadcastInDim S1024x1600 ![] bcast_S_S1024x1600 main_cst
  let main_v2 : IVec S1024x1600 1 := cmpf .olt main_v0 main_v1
  let main_c : IVec S_ 1 := constantI S_ 1 1#1
  let main_v3 : IVec S_ 1 := (fun x v => Host.reduce IntOp.andi x v reducesTo_S1024x1600_S_d0_1 h_S_) main_v2 main_c
  let main_v4 : FVec F S1024x1600 .f32 := Host.absf main_arg1
  let main_cst_0 : FVec F S_ .f32 := constant S_ .f32 0x7F800000#32
  let main_v5 : FVec F S1024x1600 .f32 := broadcastInDim S1024x1600 ![] bcast_S_S1024x1600 main_cst_0
  let main_v6 : IVec S1024x1600 1 := cmpf .olt main_v4 main_v5
  let main_c_1 : IVec S_ 1 := constantI S_ 1 1#1
  let main_v7 : IVec S_ 1 := (fun x v => Host.reduce IntOp.andi x v reducesTo_S1024x1600_S_d0_1 h_S_) main_v6 main_c_1
  let main_v8 : IVec S_ 1 := andi main_v3 main_v7
  let main_v9 : FVec F S64x1600 .f32 := Host.absf main_arg2
  let main_cst_2 : FVec F S_ .f32 := constant S_ .f32 0x7F800000#32
  let main_v10 : FVec F S64x1600 .f32 := broadcastInDim S64x1600 ![] bcast_S_S64x1600 main_cst_2
  let main_v11 : IVec S64x1600 1 := cmpf .olt main_v9 main_v10
  let main_c_3 : IVec S_ 1 := constantI S_ 1 1#1
  let main_v12 : IVec S_ 1 := (fun x v => Host.reduce IntOp.andi x v reducesTo_S64x1600_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S1024x1600 : Shape := ⟨2, ![1024, 1600]⟩
abbrev S64x1600 : Shape := ⟨2, ![64, 1600]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1600x64 : Shape := ⟨2, ![1600, 64]⟩
abbrev S1024x64 : Shape := ⟨2, ![1024, 64]⟩
abbrev S256x1600 : Shape := ⟨2, ![256, 1600]⟩
abbrev S256x64 : Shape := ⟨2, ![256, 64]⟩
abbrev S64x32 : Shape := ⟨2, ![64, 32]⟩
abbrev S1x64 : Shape := ⟨2, ![1, 64]⟩
abbrev S1x1 : Shape := ⟨2, ![1, 1]⟩
abbrev S1024x1024 : Shape := ⟨2, ![1024, 1024]⟩
abbrev S64x64 : Shape := ⟨2, ![64, 64]⟩
abbrev S128x64 : Shape := ⟨2, ![128, 64]⟩
abbrev S64x128 : Shape := ⟨2, ![64, 128]⟩
abbrev S64x1x64 : Shape := ⟨3, ![64, 1, 64]⟩
abbrev S1x128x64 : Shape := ⟨3, ![1, 128, 64]⟩
abbrev S64x128x64 : Shape := ⟨3, ![64, 128, 64]⟩
abbrev S1x1x64 : Shape := ⟨3, ![1, 1, 64]⟩
abbrev S8192x64 : Shape := ⟨2, ![8192, 64]⟩
abbrev S8192x32 : Shape := ⟨2, ![8192, 32]⟩
abbrev S64x128x32 : Shape := ⟨3, ![64, 128, 32]⟩
abbrev S1x1x32 : Shape := ⟨3, ![1, 1, 32]⟩

abbrev nBuf : Space → Nat
  | .hbm => 16
  | .vmem => 21
  | .smem => 0
  | _ => 0

abbrev bufTy : (tb : Table) → Fin (tcTables nBuf tb) → BufTy
  | .hbm, ⟨0, _⟩ => ⟨S1024x1600, .f32⟩
  | .hbm, ⟨1, _⟩ => ⟨S1024x1600, .f32⟩
  | .hbm, ⟨2, _⟩ => ⟨S64x1600, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S1x32, .f32⟩
  | .hbm, ⟨7, _⟩ => ⟨S1, .f32⟩
  | .hbm, ⟨8, _⟩ => ⟨S1600x64, .f32⟩
  | .hbm, ⟨9, _⟩ => ⟨S1024x64, .f32⟩
  | .hbm, ⟨10, _⟩ => ⟨S1024x64, .f32⟩
  | .hbm, ⟨11, _⟩ => ⟨S64x32, .f32⟩
  | .hbm, ⟨12, _⟩ => ⟨S1x64, .f32⟩
  | .hbm, ⟨13, _⟩ => ⟨S1x32, .f32⟩
  | .hbm, ⟨14, _⟩ => ⟨S1x1, .f32⟩
  | .hbm, ⟨15, _⟩ => ⟨S1024x1024, .f32⟩
  | .local _ .vmem, ⟨0, _⟩ => ⟨S256x1600, .f32⟩
  | .local _ .vmem, ⟨1, _⟩ => ⟨S256x1600, .f32⟩
  | .local _ .vmem, ⟨2, _⟩ => ⟨S1600x64, .f32⟩
  | .local _ .vmem, ⟨3, _⟩ => ⟨S256x64, .f32⟩
  | .local _ .vmem, ⟨4, _⟩ => ⟨S256x64, .f32⟩
  | .local _ .vmem, ⟨5, _⟩ => ⟨S256x1600, .f32⟩
  | .local _ .vmem, ⟨6, _⟩ => ⟨S256x1600, .f32⟩
  | .local _ .vmem, ⟨7, _⟩ => ⟨S1600x64, .f32⟩
  | .local _ .vmem, ⟨8, _⟩ => ⟨S256x64, .f32⟩
  | .local _ .vmem, ⟨9, _⟩ => ⟨S256x64, .f32⟩
  | .local _ .vmem, ⟨10, _⟩ => ⟨S64x64, .f32⟩
  | .local _ .vmem, ⟨11, _⟩ => ⟨S64x64, .f32⟩
  | .local _ .vmem, ⟨12, _⟩ => ⟨S128x64, .f32⟩
  | .local _ .vmem, ⟨13, _⟩ => ⟨S128x64, .f32⟩
  | .local _ .vmem, ⟨14, _⟩ => ⟨S1x64, .f32⟩
  | .local _ .vmem, ⟨15, _⟩ => ⟨S64x32, .f32⟩
  | .local _ .vmem, ⟨16, _⟩ => ⟨S1x32, .f32⟩
  | .local _ .vmem, ⟨17, _⟩ => ⟨S1x32, .f32⟩
  | .local _ .vmem, ⟨18, _⟩ => ⟨S1x1, .f32⟩
  | .local _ .vmem, ⟨19, _⟩ => ⟨S64x128, .f32⟩
  | .local _ .vmem, ⟨20, _⟩ => ⟨S64x128, .f32⟩
  | _, _ => ⟨S1024x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1600x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1600x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![16, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S64x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S64x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

class Facts₀ : Prop where
  transposes_S64x1600_S1600x64_1_0 : S64x1600.Transposes [1, 0] S1600x64
  inb_S256x1600_S256x1600_0_0 : ∀ a, (![0, 0] : Fin 2 → Nat) a + S256x1600.size a ≤ S256x1600.size a
  h_S256x1600 : 0 < S256x1600.numel
  bitsLt_bf16_f32 : FTy.bits .bf16 < FTy.bits .f32
  inb_S1600x64_S1600x64_0_0 : ∀ a, (![0, 0] : Fin 2 → Nat) a + S1600x64.size a ≤ S1600x64.size a
  h_S1600x64 : 0 < S1600x64.numel
  shapeCasts_S1600x64_S1600x64 : S1600x64.ShapeCasts S1600x64
  inb_S256x64_S256x64_0_0 : ∀ a, (![0, 0] : Fin 2 → Nat) a + S256x64.size a ≤ S256x64.size a
  h_S256x64 : 0 < S256x64.numel
  transposes_S32x64_S64x32_1_0 : S32x64.Transposes [1, 0] S64x32
  shapeCasts_S64_S1x64 : S64.ShapeCasts S1x64
  shapeCasts_S32_S1x32 : S32.ShapeCasts S1x32
  shapeCasts_S1_S1x1 : S1.ShapeCasts S1x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S64x64_S64x1x64 : S64x64.ShapeCasts S64x1x64
  shapeCasts_S128x64_S1x128x64 : S128x64.ShapeCasts S1x128x64
  broadcasts_S64x1x64_S64x128x64 : S64x1x64.Broadcasts S64x128x64
  broadcasts_S1x128x64_S64x128x64 : S1x128x64.Broadcasts S64x128x64
  shapeCasts_S1x64_S1x1x64 : S1x64.ShapeCasts S1x1x64
  broadcasts_S1x1x64_S64x128x64 : S1x1x64.Broadcasts S64x128x64
  shapeCasts_S64x128x64_S8192x64 : S64x128x64.ShapeCasts S8192x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  shapeCasts_S8192x32_S64x128x32 : S8192x32.ShapeCasts S64x128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S1x1x32 : S1x32.ShapeCasts S1x1x32
  broadcasts_S1x1x32_S64x128x32 : S1x1x32.Broadcasts S64x128x32
  reduces_S64x128x32_S64x128 : S64x128x32.Reduces [2] S64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x128 : S1x1.Broadcasts S64x128
  inb_S64x128_S64x128_0_0 : ∀ a, (![0, 0] : Fin 2 → Nat) a + S64x128.size a ≤ S64x128.size a
  h_S64x128 : 0 < S64x128.numel
  dot_S256x1600_S1600x64_S256x64_1_0_0_1_n_n_wf : DotDims.WF S256x1600 S1600x64 S256x64 [1] [0] [0] [1] [] []
  dot_S8192x64_S64x32_S8192x32_1_0_0_1_n_n_wf : DotDims.WF S8192x64 S64x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1600.size a ≤ S1024x1600.size a
  hwx0_0 : ∀ i : grid0.Coords, EltTy.bits .f32 = 32 ∨ (Rect.block (s := S1024x1600) S256x1600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1600x64.size a ≤ S1600x64.size a
  hwx0_1 : ∀ i : grid0.Coords, EltTy.bits .f32 = 32 ∨ (Rect.block (s := S1600x64) S1600x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S1024x64.size a
  hwx0_2 : ∀ i : grid0.Coords, EltTy.bits .f32 = 32 ∨ (Rect.block (s := S1024x64) S256x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1600.size a ≤ S1024x1600.size a
  hwx1_0 : ∀ i : grid1.Coords, EltTy.bits .f32 = 32 ∨ (Rect.block (s := S1024x1600) S256x1600.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1600x64.size a ≤ S1600x64.size a
  hwx1_1 : ∀ i : grid1.Coords, EltTy.bits .f32 = 32 ∨ (Rect.block (s := S1600x64) S1600x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S1024x64.size a
  hwx1_2 : ∀ i : grid1.Coords, EltTy.bits .f32 = 32 ∨ (Rect.block (s := S1024x64) S256x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x64.size a ≤ S1024x64.size a
  hwx2_0 : ∀ i : grid2.Coords, EltTy.bits .f32 = 32 ∨ (Rect.block (s := S1024x64) S64x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S1024x64.size a
  hwx2_1 : ∀ i : grid2.Coords, EltTy.bits .f32 = 32 ∨ (Rect.block (s := S1024x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S64x128.size a ≤ S1024x1024.size a
  hwx2_7 : ∀ i : grid2.Coords, EltTy.bits .f32 = 32 ∨ (Rect.block (s := S1024x1024) S64x128.size (cc2_transform_7 i) (hinb2_7 i)).WholeWords (EltTy.packing .f32)

variable [Facts₀]

def dot_S256x1600_S1600x64_S256x64_1_0_0_1_n_n : DotDims S256x1600 S1600x64 S256x64 where
  lhsContracting := [1]
  rhsContracting := [0]
  lhsNonContracting := [0]
  rhsNonContracting := [1]
  lhsBatch := []
  rhsBatch := []
  wf := dot_S256x1600_S1600x64_S256x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

abbrev win0_0 : Pipeline.Window sig grid0 :=
  Pipeline.Window.ofSpec (Memref.whole main_arg0) S256x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1600x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x1600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1600x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S64x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S128x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S64x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S1024x1600 : Shape := ⟨2, ![1024, 1600]⟩
abbrev S64x1600 : Shape := ⟨2, ![64, 1600]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1024x64 : Shape := ⟨2, ![1024, 64]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S1x1x64 : Shape := ⟨3, ![1, 1, 64]⟩
abbrev S_ : Shape := ⟨0, ![]⟩
abbrev S1024x1024x32 : Shape := ⟨3, ![1024, 1024, 32]⟩
abbrev S1x1x32 : Shape := ⟨3, ![1, 1, 32]⟩
abbrev S1024x1024x1 : Shape := ⟨3, ![1024, 1024, 1]⟩
abbrev S1x1x1 : Shape := ⟨3, ![1, 1, 1]⟩
abbrev S1024x1024 : Shape := ⟨2, ![1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1024x1600, .f32⟩
  | .hbm, ⟨1, _⟩ => ⟨S1024x1600, .f32⟩
  | .hbm, ⟨2, _⟩ => ⟨S64x1600, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S1x32, .f32⟩
  | .hbm, ⟨7, _⟩ => ⟨S1, .f32⟩
  | .hbm, ⟨8, _⟩ => ⟨S1024x64, .f32⟩
  | .hbm, ⟨9, _⟩ => ⟨S1024x64, .f32⟩
  | .hbm, ⟨10, _⟩ => ⟨S1024x1x64, .f32⟩
  | .hbm, ⟨11, _⟩ => ⟨S1x1024x64, .f32⟩
  | .hbm, ⟨12, _⟩ => ⟨S1024x1024x64, .f32⟩
  | .hbm, ⟨13, _⟩ => ⟨S1024x1024x64, .f32⟩
  | .hbm, ⟨14, _⟩ => ⟨S1024x1024x64, .f32⟩
  | .hbm, ⟨15, _⟩ => ⟨S1x1x64, .f32⟩
  | .hbm, ⟨16, _⟩ => ⟨S1024x1024x64, .f32⟩
  | .hbm, ⟨17, _⟩ => ⟨S1024x1024x64, .f32⟩
  | .hbm, ⟨18, _⟩ => ⟨S_, .f32⟩
  | .hbm, ⟨19, _⟩ => ⟨S1024x1024x64, .f32⟩
  | .hbm, ⟨20, _⟩ => ⟨S1024x1024x64, .f32⟩
  | .hbm, ⟨21, _⟩ => ⟨S1024x1024x32, .f32⟩
  | .hbm, ⟨22, _⟩ => ⟨S1x1x32, .f32⟩
  | .hbm, ⟨23, _⟩ => ⟨S1024x1024x32, .f32⟩
  | .hbm, ⟨24, _⟩ => ⟨S1024x1024x32, .f32⟩
  | .hbm, ⟨25, _⟩ => ⟨S_, .f32⟩
  | .hbm, ⟨26, _⟩ => ⟨S1024x1024x32, .f32⟩
  | .hbm, ⟨27, _⟩ => ⟨S1024x1024x32, .f32⟩
  | .hbm, ⟨28, _⟩ => ⟨S1024x1024x1, .f32⟩
  | .hbm, ⟨29, _⟩ => ⟨S1x1x1, .f32⟩
  | .hbm, ⟨30, _⟩ => ⟨S1024x1024x1, .f32⟩
  | .hbm, ⟨31, _⟩ => ⟨S1024x1024x1, .f32⟩
  | .hbm, ⟨32, _⟩ => ⟨S_, .f32⟩
  | .hbm, ⟨33, _⟩ => ⟨S1024x1024x1, .f32⟩
  | .hbm, ⟨34, _⟩ => ⟨S1024x1024x1, .f32⟩
  | .hbm, ⟨35, _⟩ => ⟨S1024x1024, .f32⟩
  | _, _ => ⟨S1024x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_cst : Ref sig .tc := ⟨.hbm, 32, rfl⟩
abbrev main_call2_v0 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  bcast_S32_S1x1x32_2 : S32.BroadcastsInDim S1x1x32 (![2] : Fin 1 → Fin S1x1x32.rank)
  bcast_S1x1x32_S1024x1024x32_0_1_2 : S1x1x32.BroadcastsInDim S1024x1024x32 (![0, 1, 2] : Fin 3 → Fin S1024x1024x32.rank)
  bcast_S_S1024x1024x32 : S_.BroadcastsInDim S1024x1024x32 (![] : Fin 0 → Fin S1024x1024x32.rank)
  bcast_S1_S1x1x1_2 : S1.BroadcastsInDim S1x1x1 (![2] : Fin 1 → Fin S1x1x1.rank)
  bcast_S1x1x1_S1024x1024x1_0_1_2 : S1x1x1.BroadcastsInDim S1024x1024x1 (![0, 1, 2] : Fin 3 → Fin S1024x1024x1.rank)
  bcast_S_S1024x1024x1 : S_.BroadcastsInDim S1024x1024x1 (![] : Fin 0 → Fin S1024x1024x1.rank)
  shapeCasts_S1024x1024x1_S1024x1024 : S1024x1024x1.ShapeCasts S1024x1024
  dot_S1024x1600_S64x1600_S1024x64_1_1_0_0_n_n_wf : DotDims.WF S1024x1600 S64x1600 S1024x64 [1] [1] [0] [0] [] []
  dot_S1024x1024x64_S32x64_S1024x1024x32_2_1_01_0_n_n_wf : DotDims.WF S1024x1024x64 S32x64 S1024x1024x32 [2] [1] [0, 1] [0] [] []
  dot_S1024x1024x32_S1x32_S1024x1024x1_2_1_01_0_n_n_wf : DotDims.WF S1024x1024x32 S1x32 S1024x1024x1 [2] [1] [0, 1] [0] [] []

variable [Facts₀]

def dot_S1024x1600_S64x1600_S1024x64_1_1_0_0_n_n : DotDims S1024x1600 S64x1600 S1024x64 where
  lhsContracting := [1]
  rhsContracting := [1]
  lhsNonContracting := [0]
  rhsNonContracting := [0]
  lhsBatch := []
  rhsBatch := []
  wf := dot_S1024x1600_S64x1600_S1024x64_1_1_0_0_n_n_wf
def dot_S1024x1024x64_S32x64_S1024x1024x32_2_1_01_0_n_n : DotDims S1024x1024x64 S32x64 S1024x1024x32 where
  lhsContracting := [2]
  rhsContracting := [1]
  lhsNonContracting := [0, 1]
  rhsNonContracting := [0]
  lhsBatch := []
  rhsBatch := []
  wf := dot_S1024x1024x64_S32x64_S1024x1024x32_2_1_01_0_n_n_wf
def dot_S1024x1024x32_S1x32_S1024x1024x1_2_1_01_0_n_n : DotDims S1024x1024x32 S1x32 S1024x1024x1 where
  lhsContracting := [2]
  rhsContracting := [1]
  lhsNonContracting := [0, 1]
  rhsNonContracting := [0]
  lhsBatch := []
  rhsBatch := []
  wf := dot_S1024x1024x32_S1x32_S1024x1024x1_2_1_01_0_n_n_wf

class Facts : Prop extends Facts₀ where

variable [Facts]
-- ==== Proof.Spec.lean ====
/-
  The function of the eight argument arrays that both programs compute, entry by entry, on the extended reals.

  Two arrays of 1024 rows, a and b, are each projected by the same 64 × 1600 weight matrix W1 (every row of the
  result is the array's row contracted with every row of W1). For a pair (n, m) of a row of the first projection
  and a row of the second, three layers follow: the difference of the two projected rows plus the bias b1, clamped
  below at zero (64 numbers); those contracted with each of the 32 rows of W2, plus b2, clamped (32 numbers); those
  contracted with the one row of W3, plus b3, clamped (one number): entry (n, m) of the 1024 × 1024 result.
  The small operands of the layers are taken as functions of their natural coordinates, so that a program holding
  a bias as a row of a [1, c] matrix, or a weight matrix transposed, instantiates the same definitions.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals over a shape. -/
abbrev Arr (s : Shape) : Type := s.Idx → EReal

/-- Clamping below at zero. -/
abbrev relu (x : EReal) : EReal := max x 0

/-- Rows by rows: entry (r, h) is row r of `x` contracted with row h of `w`. -/
def proj (x : Arr ⟨2, ![1024, 1600]⟩) (w : Arr ⟨2, ![64, 1600]⟩) : Arr ⟨2, ![1024, 64]⟩ :=
  fun i => ∑ d : Fin 1600, x (ix2 (i 0) d) * w (ix2 (i 1) d)

/-- Rows by columns: entry (r, h) is row r of `x` contracted with column h of `wt`. -/
def projT (x : Arr ⟨2, ![1024, 1600]⟩) (wt : Arr ⟨2, ![1600, 64]⟩) : Arr ⟨2, ![1024, 64]⟩ :=
  fun i => ∑ d : Fin 1600, x (ix2 (i 0) d) * wt (ix2 d (i 1))

/-- With the weight matrix given transposed, rows by columns is rows by rows. -/
theorem projT_eq_proj (x : Arr ⟨2, ![1024, 1600]⟩) (w : Arr ⟨2, ![64, 1600]⟩) (wt : Arr ⟨2, ![1600, 64]⟩)
    (hw : ∀ (d : Fin 1600) (h : Fin 64), wt (ix2 d h) = w (ix2 h d)) : projT x wt = proj x w := by
  funext i
  unfold projT proj
  exact Finset.sum_congr rfl fun d _ => congrArg (x (ix2 (i 0) d) * ·) (hw d (i 1))

/-- First layer at the pair (n, m), coordinate h. -/
def layer1 (pa pb : Arr ⟨2, ![1024, 64]⟩) (b1 : Fin 64 → EReal) (n m : Fin 1024) (h : Fin 64) : EReal :=
  relu (pa (ix2 n h) - pb (ix2 m h) + b1 h)

/-- Second layer at the pair (n, m), coordinate k. -/
def layer2 (pa pb : Arr ⟨2, ![1024, 64]⟩) (b1 : Fin 64 → EReal) (w2 : Fin 32 → Fin 64 → EReal) (b2 : Fin 32 → EReal)
    (n m : Fin 1024) (k : Fin 32) : EReal :=
  relu ((∑ h : Fin 64, layer1 pa pb b1 n m h * w2 k h) + b2 k)

/-- Third layer at the pair (n, m). -/
def layer3 (pa pb : Arr ⟨2, ![1024, 64]⟩) (b1 : Fin 64 → EReal) (w2 : Fin 32 → Fin 64 → EReal) (b2 : Fin 32 → EReal)
    (w3 : Fin 32 → EReal) (b3 : EReal) (n m : Fin 1024) : EReal :=
  relu ((∑ k : Fin 32, layer2 pa pb b1 w2 b2 n m k * w3 k) + b3)

/-- The three layers over every pair of rows of the two projections. -/
def mlp (pa pb : Arr ⟨2, ![1024, 64]⟩) (b1 : Fin 64 → EReal) (w2 : Fin 32 → Fin 64 → EReal) (b2 : Fin 32 → EReal)
    (w3 : Fin 32 → EReal) (b3 : EReal) : Arr ⟨2, ![1024, 1024]⟩ :=
  fun i => layer3 pa pb b1 w2 b2 w3 b3 (i 0) (i 1)

/-- The result as a function of the eight argument arrays. -/
def result (a b : Arr ⟨2, ![1024, 1600]⟩) (W1 : Arr ⟨2, ![64, 1600]⟩) (b1 : Arr ⟨1, ![64]⟩) (W2 : Arr ⟨2, ![32, 64]⟩)
    (b2 : Arr ⟨1, ![32]⟩) (W3 : Arr ⟨2, ![1, 32]⟩) (b3 : Arr ⟨1, ![1]⟩) : Arr ⟨2, ![1024, 1024]⟩ :=
  mlp (proj a W1) (proj b W1) (fun h => b1 (ix1 h)) (fun k h => W2 (ix2 k h)) (fun k => b2 (ix1 k))
    (fun k => W3 (ix2 0 k)) (b3 (ix1 0))

end Cert.Spec

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KProj0.lean ====
/-
  The first kernel region of the program, read as a value: it projects the 1024 × 1600 array `main_arg0` by the
  1600 × 64 matrix `main_v0`, a block of 256 rows at each of its four grid points, the whole matrix at every point.

  At a point the body multiplies the block of rows by the matrix into a zero accumulator; at the ideal values the
  change of float format is the identity and the product's entry (p, h) is the plain sum over the 1600 shared
  positions. Block t of the output is rows 256·t … 256·t + 255, so what point t writes back is block t of the
  whole product (`projT`), and the four blocks cover the 1024 rows: the output array ends holding the whole product
  of the arrays the region found.
-/
import proofs.«143582_j54743653155010_1_alg».proof.Proof.Gen.KernelIdeal.Frame
import proofs.«143582_j54743653155010_1_alg».proof.Proof.Spec
import proofs.«143582_j54743653155010_1_alg».proof.Proof.LibDotRowsCols
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's product keeps the left operand's rows and the right operand's columns and contracts the other two axes. -/
theorem rowsCols : Cert.Lib.DotRowsCols.RowsCols dot_S256x1600_S1600x64_S256x64_1_0_0_1_n_n :=
  ⟨rfl, rfl, rfl, rfl, rfl, rfl⟩

/-- The body's stored value at entry (p, h): the sum over the shared axis of the block's row p against the matrix's
    column h. -/
theorem pay_apply (x0 : Vec Ideal S256x1600 .f32) (x1 : Vec Ideal S1600x64 .f32) (j : S256x64.Idx) :
    k0_pay1 x0 x1 j = ∑ d : Fin 1600, x0 (ix2 (j 0) d) * x1 (ix2 d (j 1)) := by
  unfold k0_pay1
  simp only [shapeCast_self]
  exact rowsCols.matmul_zero_apply none _ _ j

/-- The printed index maps, decided over the grid: the row-block index of the input rows and of the output is the
    point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q : Fin 4, ∃ t : Fin cfg0.N, t.val = q.val :=
  fun q => ⟨⟨q.val, q.isLt⟩, rfl⟩

/-- What point `t` writes back is block `t` of the whole product of the arrays the region found. -/
theorem flushed_eq (c : Dev nD) (t : Fin cfg0.N) :
    (dat0 V c).flushed 2 t = ((cfg0.win 2).blk t).view.read (Elt Ideal)
      (Cert.Spec.projT (V c main_arg0 : S1024x1600.Idx → EReal) (V c main_v0 : S1600x64.Idx → EReal)) := by
  show (cfg0.win 2).cut (grid0.coords t) ((dat0 V c).after 2 t) = _
  rw [after0_2]
  unfold out0_2
  rw [View.canon_unit_zero hz]
  simp only [View.ld_unit_zero (S := S256x1600) hz, View.ld_unit_zero (S := S1600x64) hz]
  obtain ⟨e0, e1, e2, e3, e4, e5⟩ := idx_facts t
  funext j
  show k0_pay1 (iblk0 V c 0 t) (iblk0 V c 1 t) j
    = Cert.Spec.projT (V c main_arg0 : S1024x1600.Idx → EReal) (V c main_v0 : S1600x64.Idx → EReal) (((cfg0.win 2).blk t).view.emb j)
  refine (pay_apply (iblk0 V c 0 t) (iblk0 V c 1 t) j).trans ?_
  unfold Cert.Spec.projT
  refine Finset.sum_congr rfl fun d _ => ?_
  have h0 : (iblk0 V c 0 t : S256x1600.Idx → EReal) (ix2 (j 0) d)
      = (V c main_arg0 : S1024x1600.Idx → EReal) (ix2 ((((cfg0.win 2).blk t).view.emb j) 0) d) := by
    show (V c main_arg0 : S1024x1600.Idx → EReal) (((cfg0.win 0).blk t).view.emb (ix2 (j 0) d)) = _
    congr 1
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 1600 + 1 * d.val = d.val; omega
  have h1 : (iblk0 V c 1 t : S1600x64.Idx → EReal) (ix2 d (j 1))
      = (V c main_v0 : S1600x64.Idx → EReal) (ix2 d ((((cfg0.win 2).blk t).view.emb j) 1)) := by
    show (V c main_v0 : S1600x64.Idx → EReal) (((cfg0.win 1).blk t).view.emb (ix2 d (j 1))) = _
    congr 1
    funext a; apply Fin.ext
    match a with
    | ⟨0, _⟩ => show win0_1.index t (0 : Fin 2) * 1600 + 1 * d.val = d.val; omega
    | ⟨1, _⟩ => show win0_1.index t (1 : Fin 2) * 64 + 1 * (j 1).val = win0_2.index t (1 : Fin 2) * 64 + 1 * (j 1).val; omega
  exact congrArg₂ (· * ·) h0 h1

/-- An index of the output array is in point `t`'s block iff each coordinate is in the block's range on its axis. -/
theorem mem_blk (t : Fin cfg0.N) (i : S1024x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v1).slice (win0_2.rect t)).set ↔ _
  rw [View.set_slice_whole, Rect.mem_set_unit]
  exact Iff.rfl

/-- The output array after the region: the whole product of the arrays the region found. -/
theorem proj0_final (c : Dev nD) :
    ((dat0 V c).arrAt 2 cfg0.N : S1024x64.Idx → EReal)
      = Cert.Spec.projT (V c main_arg0 : S1024x1600.Idx → EReal) (V c main_v0 : S1600x64.Idx → EReal) :=
  (dat0 V c).arrAt_eq_of_cover 2 _ (fun t _ => flushed_eq V c t) fun i => by
    have hi0 : (i 0).val < 1024 := (i 0).isLt
    have hi1 : (i 1).val < 64 := (i 1).isLt
    obtain ⟨t, ht⟩ := idx_onto ⟨(i 0).val / 256, by omega⟩
    have ht' : t.val = (i 0).val / 256 := ht
    obtain ⟨e0, e1, e2, e3, e4, e5⟩ := idx_facts t
    refine ⟨t, flush0_2 t, ?_⟩
    rw [mem_blk]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 64 ≤ (i 1).val ∧ (i 1).val < win0_2.index t (1 : Fin 2) * 64 + 64; omega

end Cert.KernelIdeal.Hand0

end
-- ==== Proof.KProj1.lean ====
/-
  The second kernel region of the program, read as a value: it projects the 1024 × 1600 array `main_arg1` by the
  1600 × 64 matrix `main_v0`, a block of 256 rows at each of its four grid points, the whole matrix at every point.

  At a point the body multiplies the block of rows by the matrix into a zero accumulator; at the ideal values the
  change of float format is the identity and the product's entry (p, h) is the plain sum over the 1600 shared
  positions. Block t of the output is rows 256·t … 256·t + 255, so what point t writes back is block t of the
  whole product (`projT`), and the four blocks cover the 1024 rows: the output array ends holding the whole product
  of the arrays the region found.
-/
import proofs.«143582_j54743653155010_1_alg».proof.Proof.Gen.KernelIdeal.Frame
import proofs.«143582_j54743653155010_1_alg».proof.Proof.Spec
import proofs.«143582_j54743653155010_1_alg».proof.Proof.LibDotRowsCols
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's product keeps the left operand's rows and the right operand's columns and contracts the other two axes. -/
theorem rowsCols : Cert.Lib.DotRowsCols.RowsCols dot_S256x1600_S1600x64_S256x64_1_0_0_1_n_n :=
  ⟨rfl, rfl, rfl, rfl, rfl, rfl⟩

/-- The body's stored value at entry (p, h): the sum over the shared axis of the block's row p against the matrix's
    column h. -/
theorem pay_apply (x0 : Vec Ideal S256x1600 .f32) (x1 : Vec Ideal S1600x64 .f32) (j : S256x64.Idx) :
    k1_pay1 x0 x1 j = ∑ d : Fin 1600, x0 (ix2 (j 0) d) * x1 (ix2 d (j 1)) := by
  unfold k1_pay1
  simp only [shapeCast_self]
  exact rowsCols.matmul_zero_apply none _ _ j

/-- The printed index maps, decided over the grid: the row-block index of the input rows and of the output is the
    point, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem idx_onto : ∀ q : Fin 4, ∃ t : Fin cfg1.N, t.val = q.val :=
  fun q => ⟨⟨q.val, q.isLt⟩, rfl⟩

/-- What point `t` writes back is block `t` of the whole product of the arrays the region found. -/
theorem flushed_eq (c : Dev nD) (t : Fin cfg1.N) :
    (dat1 V c).flushed 2 t = ((cfg1.win 2).blk t).view.read (Elt Ideal)
      (Cert.Spec.projT (V c main_arg1 : S1024x1600.Idx → EReal) (V c main_v0 : S1600x64.Idx → EReal)) := by
  show (cfg1.win 2).cut (grid1.coords t) ((dat1 V c).after 2 t) = _
  rw [after1_2]
  unfold out1_2
  rw [View.canon_unit_zero hz]
  simp only [View.ld_unit_zero (S := S256x1600) hz, View.ld_unit_zero (S := S1600x64) hz]
  obtain ⟨e0, e1, e2, e3, e4, e5⟩ := idx_facts t
  funext j
  show k1_pay1 (iblk1 V c 0 t) (iblk1 V c 1 t) j
    = Cert.Spec.projT (V c main_arg1 : S1024x1600.Idx → EReal) (V c main_v0 : S1600x64.Idx → EReal) (((cfg1.win 2).blk t).view.emb j)
  refine (pay_apply (iblk1 V c 0 t) (iblk1 V c 1 t) j).trans ?_
  unfold Cert.Spec.projT
  refine Finset.sum_congr rfl fun d _ => ?_
  have h0 : (iblk1 V c 0 t : S256x1600.Idx → EReal) (ix2 (j 0) d)
      = (V c main_arg1 : S1024x1600.Idx → EReal) (ix2 ((((cfg1.win 2).blk t).view.emb j) 0) d) := by
    show (V c main_arg1 : S1024x1600.Idx → EReal) (((cfg1.win 0).blk t).view.emb (ix2 (j 0) d)) = _
    congr 1
    funext a; apply Fin.ext
    match a with
    | ⟨0, _⟩ => show win1_0.index t (0 : Fin 2) * 256 + 1 * (j 0).val = win1_2.index t (0 : Fin 2) * 256 + 1 * (j 0).val; omega
    | ⟨1, _⟩ => show win1_0.index t (1 : Fin 2) * 1600 + 1 * d.val = d.val; omega
  have h1 : (iblk1 V c 1 t : S1600x64.Idx → EReal) (ix2 d (j 1))
      = (V c main_v0 : S1600x64.Idx → EReal) (ix2 d ((((cfg1.win 2).blk t).view.emb j) 1)) := by
    show (V c main_v0 : S1600x64.Idx → EReal) (((cfg1.win 1).blk t).view.emb (ix2 d (j 1))) = _
    congr 1
    funext a; apply Fin.ext
    match a with
    | ⟨0, _⟩ => show win1_1.index t (0 : Fin 2) * 1600 + 1 * d.val = d.val; omega
    | ⟨1, _⟩ => show win1_1.index t (1 : Fin 2) * 64 + 1 * (j 1).val = win1_2.index t (1 : Fin 2) * 64 + 1 * (j 1).val; omega
  exact congrArg₂ (· * ·) h0 h1

/-- An index of the output array is in point `t`'s block iff each coordinate is in the block's range on its axis. -/
theorem mem_blk (t : Fin cfg1.N) (i : S1024x64.Idx) :
    i ∈ ((cfg1.win 2).blk t).view.set ↔ ∀ a : Fin 2, win1_2.index t a * S256x64.size a ≤ (i a).val ∧ (i a).val < win1_2.index t a * S256x64.size a + S256x64.size a := by
  show i ∈ ((View.whole main_v2).slice (win1_2.rect t)).set ↔ _
  rw [View.set_slice_whole, Rect.mem_set_unit]
  exact Iff.rfl

/-- The output array after the region: the whole product of the arrays the region found. -/
theorem proj1_final (c : Dev nD) :
    ((dat1 V c).arrAt 2 cfg1.N : S1024x64.Idx → EReal)
      = Cert.Spec.projT (V c main_arg1 : S1024x1600.Idx → EReal) (V c main_v0 : S1600x64.Idx → EReal) :=
  (dat1 V c).arrAt_eq_of_cover 2 _ (fun t _ => flushed_eq V c t) fun i => by
    have hi0 : (i 0).val < 1024 := (i 0).isLt
    have hi1 : (i 1).val < 64 := (i 1).isLt
    obtain ⟨t, ht⟩ := idx_onto ⟨(i 0).val / 256, by omega⟩
    have ht' : t.val = (i 0).val / 256 := ht
    obtain ⟨e0, e1, e2, e3, e4, e5⟩ := idx_facts t
    refine ⟨t, flush1_2 t, ?_⟩
    rw [mem_blk]
    intro a
    match a with
    | ⟨0, _⟩ => show win1_2.index t (0 : Fin 2) * 256 ≤ (i 0).val ∧ (i 0).val < win1_2.index t (0 : Fin 2) * 256 + 256; omega
    | ⟨1, _⟩ => show win1_2.index t (1 : Fin 2) * 64 ≤ (i 1).val ∧ (i 1).val < win1_2.index t (1 : Fin 2) * 64 + 64; omega

end Cert.KernelIdeal.Hand1

end
-- ==== Proof.KChain.lean ====
/-
  The result array of the idealized kernel program as a function of its eight argument arrays.

  The program is a transposition of W1, two projection regions that share the transposed matrix, a transposition of
  W2 and three re-layings of the biases as one-row matrices, and the region of the three layers. Walking back
  from the last region's output: its value is the three layers of the arrays that region found; of those, the two
  projections are what the first two regions left (no later item writes them), each the rows-by-columns product of
  an argument with the transposed W1, which is the rows-by-rows product with W1 itself; the transposed W2 read at
  (h, k) is W2 at (k, h); a bias re-laid as a [1, c] row read at (0, h) is the bias at h; and W3 is the argument
  itself. No item of the program writes an argument array, so every argument is read as launched.
-/
import proofs.«143582_j54743653155010_1_alg».proof.Proof.Gen.KernelIdeal.Frame
import proofs.«143582_j54743653155010_1_alg».proof.Proof.Spec
import proofs.«143582_j54743653155010_1_alg».proof.Proof.KProj0
import proofs.«143582_j54743653155010_1_alg».proof.Proof.KProj1
import Idealize.ShloMosaic.Lib.Pipeline.Value
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Chain

open Cert.KernelIdeal Cert.KernelIdeal.Gen Idealize.ShloMosaic.StableHlo

variable (m : (ℓ : Loc nD τ sig) → Buf (Elt Ideal) ℓ) (ρ : Dev nD → PrngReg)

/-- No operation of the named stretch of host operations writes the buffer in the goal. -/
local macro "not_written " ops:ident : tactic => `(tactic| (
  refine List.forall_iff_forall_mem.mp ?_
  simp only [$ops:ident, List.flatten_cons, List.flatten_nil, List.append_nil, List.cons_append, List.nil_append,
    List.Forall, StableHlo.nullary_writes, StableHlo.unary_writes, StableHlo.binary_writes, StableHlo.reshape_writes,
    Finset.mem_singleton]
  repeat' apply And.intro
  all_goals exact StableHlo.devRef_ne_of_ne (by decide)))

/-! ## Before the first region -/

/-- The first stretch writes only the transposed W1: any other buffer is as launched. -/
theorem W1_keep (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact StableHlo.devRef_ne_of_ne hb))).trans rfl

/-- The transposed W1, entry (d, h), is W1 at (h, d). -/
theorem V1_v0_apply (c : Dev nD) (d : Fin 1600) (h : Fin 64) :
    (V1 m ρ c main_v0 : S1600x64.Idx → EReal) (ix2 d h)
      = (m ((c : Thread nD τ).loc main_arg2) : S64x1600.Idx → EReal) (ix2 h d) := by
  have e : (V1 m ρ c main_v0 : S1600x64.Idx → EReal)
      = transpose S1600x64 [1, 0] (m ((c : Thread nD τ).loc main_arg2) : S64x1600.Idx → EReal) transposes_S64x1600_S1600x64_1_0 := by
    show StableHlo.after hostOps0 (W0 m ρ c) (Proc.devRef .tc main_v0) = _
    after_results <;> rfl
  rw [e]
  refine transpose_apply _ _ _ _ (ix2 h d) fun b => ?_
  match b with
  | ⟨0, _⟩ => rfl
  | ⟨1, _⟩ => rfl

/-! ## The two projections -/

/-- What the first region leaves in its output: the first argument projected by W1. -/
theorem W2_v1 (c : Dev nD) :
    (W2 m ρ c (Proc.devRef .tc main_v1) : S1024x64.Idx → EReal)
      = Cert.Spec.proj (m ((c : Thread nD τ).loc main_arg0)) (m ((c : Thread nD τ).loc main_arg2)) := by
  refine ((W2_arr m ρ c 2).trans (Cert.KernelIdeal.Hand0.proj0_final (V1 m ρ) c)).trans ?_
  rw [show (V1 m ρ c main_arg0 : S1024x1600.Idx → EReal) = m ((c : Thread nD τ).loc main_arg0) from
    W1_keep m ρ c main_arg0 (by decide)]
  exact Cert.Spec.projT_eq_proj _ _ _ (V1_v0_apply m ρ c)

/-- The first region leaves the transposed W1 as it found it. -/
theorem W2_v0 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))

/-- What the second region leaves in its output: the second argument projected by W1. -/
theorem W3_v2 (c : Dev nD) :
    (W3 m ρ c (Proc.devRef .tc main_v2) : S1024x64.Idx → EReal)
      = Cert.Spec.proj (m ((c : Thread nD τ).loc main_arg1)) (m ((c : Thread nD τ).loc main_arg2)) := by
  refine ((W3_arr m ρ c 2).trans (Cert.KernelIdeal.Hand1.proj1_final (V2 m ρ) c)).trans ?_
  rw [show (V2 m ρ c main_arg1 : S1024x1600.Idx → EReal) = m ((c : Thread nD τ).loc main_arg1) from
    (W2_of_ne m ρ c main_arg1 (by decide)).trans (W1_keep m ρ c main_arg1 (by decide))]
  refine Cert.Spec.projT_eq_proj _ _ _ fun d h => ?_
  show (W2 m ρ c (Proc.devRef .tc main_v0) : S1600x64.Idx → EReal) (ix2 d h) = _
  rw [W2_v0 m ρ c]
  exact V1_v0_apply m ρ c d h

/-! ## Before the last region -/

/-- A buffer that neither projection region stages and the first stretch does not write is as launched after the
    second region. -/
theorem W3_keep (c : Dev nD) (b : Ref sig .tc) (h0 : ∀ w, Pipeline.arrRef spec0 w ≠ b) (h1 : ∀ w, Pipeline.arrRef spec1 w ≠ b)
    (hb : b ≠ main_v0) : W3 m ρ c (Proc.devRef .tc b) = m ((c : Thread nD τ).loc b) :=
  (W3_of_ne m ρ c b h1).trans ((W2_of_ne m ρ c b h0).trans (W1_keep m ρ c b hb))

/-- The second stretch leaves the two projections in place. -/
theorem V4_v1 (c : Dev nD) :
    (V4 m ρ c main_v1 : S1024x64.Idx → EReal)
      = Cert.Spec.proj (m ((c : Thread nD τ).loc main_arg0)) (m ((c : Thread nD τ).loc main_arg2)) :=
  ((StableHlo.after_of_forall_not_mem (b := Proc.devRef .tc main_v1) _ _ (by not_written hostOps2)).trans
    (W3_of_ne m ρ c main_v1 (by decide))).trans (W2_v1 m ρ c)

theorem V4_v2 (c : Dev nD) :
    (V4 m ρ c main_v2 : S1024x64.Idx → EReal)
      = Cert.Spec.proj (m ((c : Thread nD τ).loc main_arg1)) (m ((c : Thread nD τ).loc main_arg2)) :=
  (StableHlo.after_of_forall_not_mem (b := Proc.devRef .tc main_v2) _ _ (by not_written hostOps2)).trans (W3_v2 m ρ c)

/-- W3 reaches the last region as launched. -/
theorem V4_arg6 (c : Dev nD) : V4 m ρ c main_arg6 = m ((c : Thread nD τ).loc main_arg6) :=
  (StableHlo.after_of_forall_not_mem (b := Proc.devRef .tc main_arg6) _ _ (by not_written hostOps2)).trans
    (W3_keep m ρ c main_arg6 (by decide) (by decide) (by decide))

/-- The transposed W2, entry (h, k), is W2 at (k, h). -/
theorem V4_v3_apply (c : Dev nD) (h : Fin 64) (k : Fin 32) :
    (V4 m ρ c main_v3 : S64x32.Idx → EReal) (ix2 h k)
      = (m ((c : Thread nD τ).loc main_arg4) : S32x64.Idx → EReal) (ix2 k h) := by
  have e : (V4 m ρ c main_v3 : S64x32.Idx → EReal)
      = transpose S64x32 [1, 0] (W3 m ρ c (Proc.devRef .tc main_arg4) : S32x64.Idx → EReal) transposes_S32x64_S64x32_1_0 := by
    show StableHlo.after hostOps2 (W3 m ρ c) (Proc.devRef .tc main_v3) = _
    after_results <;> rfl
  rw [e, W3_keep m ρ c main_arg4 (by decide) (by decide) (by decide)]
  refine transpose_apply _ _ _ _ (ix2 k h) fun b => ?_
  match b with
  | ⟨0, _⟩ => rfl
  | ⟨1, _⟩ => rfl

/-- The first bias as a one-row matrix, entry (0, h), is the bias at h. -/
theorem V4_v4_apply (c : Dev nD) (h : Fin 64) :
    (V4 m ρ c main_v4 : S1x64.Idx → EReal) (ix2 0 h)
      = (m ((c : Thread nD τ).loc main_arg3) : S64.Idx → EReal) (ix1 h) := by
  have e : (V4 m ρ c main_v4 : S1x64.Idx → EReal)
      = shapeCast S1x64 (W3 m ρ c (Proc.devRef .tc main_arg3) : S64.Idx → EReal) shapeCasts_S64_S1x64 := by
    show StableHlo.after hostOps2 (W3 m ρ c) (Proc.devRef .tc main_v4) = _
    after_results <;> rfl
  rw [e, W3_keep m ρ c main_arg3 (by decide) (by decide) (by decide)]
  refine shapeCast_apply _ _ _ (ix1 h) ?_
  rw [Shape.rowMajor_val_one, Shape.rowMajor_val_two]
  show h.val = 0 * 64 + h.val
  omega

/-- The second bias as a one-row matrix, entry (0, k), is the bias at k. -/
theorem V4_v5_apply (c : Dev nD) (k : Fin 32) :
    (V4 m ρ c main_v5 : S1x32.Idx → EReal) (ix2 0 k)
      = (m ((c : Thread nD τ).loc main_arg5) : S32.Idx → EReal) (ix1 k) := by
  have e : (V4 m ρ c main_v5 : S1x32.Idx → EReal)
      = shapeCast S1x32 (W3 m ρ c (Proc.devRef .tc main_arg5) : S32.Idx → EReal) shapeCasts_S32_S1x32 := by
    show StableHlo.after hostOps2 (W3 m ρ c) (Proc.devRef .tc main_v5) = _
    after_results <;> rfl
  rw [e, W3_keep m ρ c main_arg5 (by decide) (by decide) (by decide)]
  refine shapeCast_apply _ _ _ (ix1 k) ?_
  rw [Shape.rowMajor_val_one, Shape.rowMajor_val_two]
  show k.val = 0 * 32 + k.val
  omega

/-- The third bias as a one-by-one matrix is the bias's one entry. -/
theorem V4_v6_apply (c : Dev nD) :
    (V4 m ρ c main_v6 : S1x1.Idx → EReal) (ix2 0 0)
      = (m ((c : Thread nD τ).loc main_arg7) : S1.Idx → EReal) (ix1 0) := by
  have e : (V4 m ρ c main_v6 : S1x1.Idx → EReal)
      = shapeCast S1x1 (W3 m ρ c (Proc.devRef .tc main_arg7) : S1.Idx → EReal) shapeCasts_S1_S1x1 := by
    show StableHlo.after hostOps2 (W3 m ρ c) (Proc.devRef .tc main_v6) = _
    after_results <;> rfl
  rw [e, W3_keep m ρ c main_arg7 (by decide) (by decide) (by decide)]
  refine shapeCast_apply _ _ _ (ix1 0) ?_
  rw [Shape.rowMajor_val_one, Shape.rowMajor_val_two]
  rfl

end Cert.KernelIdeal.Chain

end
-- ==== Proof.KMain.lean ====
/-
  The third kernel region of the program, read as a value: on a 16 × 8 grid it fills the 1024 × 1024 array
  `main_v7`, a block of 64 × 128 entries at each point, from two 1024 × 64 arrays of projected rows
  (`main_v1`, `main_v2`) and the small operands of three layers.

  At the point (s, u) the body holds rows 64·s … 64·s + 63 of the first array and rows 128·u … 128·u + 127 of the
  second. For a pair (p, q) of such rows it forms the 64 differences of the two rows plus a bias, clamped below at
  zero; these are laid out as row 128·p + q of an 8192 × 64 matrix, multiplied by a 64 × 32 matrix into a zero
  accumulator, and the 8192 × 32 product is laid out again by pairs; a second bias is added and the result clamped;
  the 32 numbers are multiplied by a row of weights and summed; a last bias is added and the sum clamped. At the
  ideal values a change of float format is the identity, so entry (p, q) of the stored block is `Spec.layer3` at the
  rows 64·s + p and 128·u + q of the whole arrays. Block (s, u) of the output is exactly those entries, and the
  16 × 8 blocks tile the array: it ends holding `Spec.mlp` of the arrays the region found.
-/
import proofs.«143582_j54743653155010_1_alg».proof.Proof.Gen.KernelIdeal.Frame
import proofs.«143582_j54743653155010_1_alg».proof.Proof.Spec
import proofs.«143582_j54743653155010_1_alg».proof.Proof.LibDotRowsCols
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

theorem hz : (![0, 0] : Fin 2 → Nat) = fun _ => 0 := funext fun a => by fin_cases a <;> rfl

/-- The second layer's product keeps the left operand's rows and the right operand's columns and contracts the
    other two axes. -/
theorem rowsCols : Cert.Lib.DotRowsCols.RowsCols dot_S8192x64_S64x32_S8192x32_1_0_0_1_n_n :=
  ⟨rfl, rfl, rfl, rfl, rfl, rfl⟩

/-! ## The layout operations of the body, read at an index -/

section Layout
variable {α : Type}

/-- The pair (p, q) of a row of the first block and a row of the second, as a row of the 8192-row matrix. -/
abbrev pairRow (p : Fin 64) (q : Fin 128) : Fin 8192 := ⟨p.val * 128 + q.val, by omega⟩

/-- A [64, c] array cast to [64, 1, c] reads, at (p, u, h), the operand at (p, h). -/
theorem cast_a1c_apply {a c : ℕ} (x : (⟨2, ![a, c]⟩ : Shape).Idx → α)
    (hc : (⟨2, ![a, c]⟩ : Shape).ShapeCasts ⟨3, ![a, 1, c]⟩) (p : Fin a) (u : Fin 1) (h : Fin c) :
    shapeCast ⟨3, ![a, 1, c]⟩ x hc (ix3 p u h) = x (ix2 p h) :=
  shapeCast_apply x hc _ _ (by
    have hu : u.val = 0 := by omega
    rw [Shape.rowMajor_val_two, Shape.rowMajor_val_three]
    show p.val * c + h.val = (p.val * 1 + u.val) * c + h.val
    rw [hu, Nat.mul_one, Nat.add_zero])

/-- A [1, c] array cast to [1, 1, c] reads, at (u, u', h), the operand at (0, h). -/
theorem cast_1c_11c_apply {c : ℕ} (x : (⟨2, ![1, c]⟩ : Shape).Idx → α)
    (hc : (⟨2, ![1, c]⟩ : Shape).ShapeCasts ⟨3, ![1, 1, c]⟩) (u u' : Fin 1) (h : Fin c) :
    shapeCast ⟨3, ![1, 1, c]⟩ x hc (ix3 u u' h) = x (ix2 (0 : Fin 1) h) :=
  shapeCast_apply x hc _ _ (by
    have hu : u.val = 0 := by omega
    have hu' : u'.val = 0 := by omega
    rw [Shape.rowMajor_val_two, Shape.rowMajor_val_three]
    show 0 * c + h.val = (u.val * 1 + u'.val) * c + h.val
    simp only [hu, hu', Nat.zero_mul, Nat.zero_add, Nat.mul_one, Nat.add_zero])

/-- A [64, 1, c] array broadcast to [64, 128, c] reads, at (p, q, h), the operand at (p, 0, h). -/
theorem bcast_a1c_apply {a b c : ℕ} (x : (⟨3, ![a, 1, c]⟩ : Shape).Idx → α)
    (hb : (⟨3, ![a, 1, c]⟩ : Shape).Broadcasts ⟨3, ![a, b, c]⟩) (p : Fin a) (q : Fin b) (h : Fin c) :
    broadcastTo ⟨3, ![a, b, c]⟩ x hb (ix3 p q h) = x (ix3 p (0 : Fin 1) h) := by
  refine broadcastTo_apply x hb (ix3 p q h) (ix3 p (0 : Fin 1) h) fun ax => ?_
  match ax with
  | ⟨0, _⟩ =>
    show p.val = if a = 1 then 0 else p.val
    split
    · have := p.isLt; omega
    · rfl
  | ⟨1, _⟩ => rfl
  | ⟨2, _⟩ =>
    show h.val = if c = 1 then 0 else h.val
    split
    · have := h.isLt; omega
    · rfl

/-- A [1, 128, c] array broadcast to [64, 128, c] reads, at (p, q, h), the operand at (0, q, h). -/
theorem bcast_1bc_apply {a b c : ℕ} (x : (⟨3, ![1, b, c]⟩ : Shape).Idx → α)
    (hb : (⟨3, ![1, b, c]⟩ : Shape).Broadcasts ⟨3, ![a, b, c]⟩) (p : Fin a) (q : Fin b) (h : Fin c) :
    broadcastTo ⟨3, ![a, b, c]⟩ x hb (ix3 p q h) = x (ix3 (0 : Fin 1) q h) := by
  refine broadcastTo_apply x hb (ix3 p q h) (ix3 (0 : Fin 1) q h) fun ax => ?_
  match ax with
  | ⟨0, _⟩ => rfl
  | ⟨1, _⟩ =>
    show q.val = if b = 1 then 0 else q.val
    split
    · have := q.isLt; omega
    · rfl
  | ⟨2, _⟩ =>
    show h.val = if c = 1 then 0 else h.val
    split
    · have := h.isLt; omega
    · rfl

/-- A [1, 1, c] array broadcast to [64, 128, c] reads, at (p, q, h), the operand at (0, 0, h). -/
theorem bcast_11c_apply {a b c : ℕ} (x : (⟨3, ![1, 1, c]⟩ : Shape).Idx → α)
    (hb : (⟨3, ![1, 1, c]⟩ : Shape).Broadcasts ⟨3, ![a, b, c]⟩) (p : Fin a) (q : Fin b) (h : Fin c) :
    broadcastTo ⟨3, ![a, b, c]⟩ x hb (ix3 p q h) = x (ix3 (0 : Fin 1) (0 : Fin 1) h) := by
  refine broadcastTo_apply x hb (ix3 p q h) (ix3 (0 : Fin 1) (0 : Fin 1) h) fun ax => ?_
  match ax with
  | ⟨0, _⟩ => rfl
  | ⟨1, _⟩ => rfl
  | ⟨2, _⟩ =>
    show h.val = if c = 1 then 0 else h.val
    split
    · have := h.isLt; omega
    · rfl

/-- A [1, 1] array broadcast to [64, 128] reads its one entry everywhere. -/
theorem bcast_11_apply {a b : ℕ} (x : (⟨2, ![1, 1]⟩ : Shape).Idx → α)
    (hb : (⟨2, ![1, 1]⟩ : Shape).Broadcasts ⟨2, ![a, b]⟩) (p : Fin a) (q : Fin b) :
    broadcastTo ⟨2, ![a, b]⟩ x hb (ix2 p q) = x (ix2 (0 : Fin 1) (0 : Fin 1)) := by
  refine broadcastTo_apply x hb (ix2 p q) (ix2 (0 : Fin 1) (0 : Fin 1)) fun ax => ?_
  match ax with
  | ⟨0, _⟩ => rfl
  | ⟨1, _⟩ => rfl

/-- The [64, 128, c] array of pairs cast to [8192, c] reads, at row 128·p + q, the operand at the pair (p, q). -/
theorem cast_pairs_rows_apply {c : ℕ} (x : (⟨3, ![64, 128, c]⟩ : Shape).Idx → α)
    (hc : (⟨3, ![64, 128, c]⟩ : Shape).ShapeCasts ⟨2, ![8192, c]⟩) (p : Fin 64) (q : Fin 128) (h : Fin c) :
    shapeCast ⟨2, ![8192, c]⟩ x hc (ix2 (pairRow p q) h) = x (ix3 p q h) :=
  shapeCast_apply x hc _ _ (by
    rw [Shape.rowMajor_val_two, Shape.rowMajor_val_three]
    rfl)

/-- The [8192, c] array cast to [64, 128, c] reads, at the pair (p, q), the operand at row 128·p + q. -/
theorem cast_rows_pairs_apply {c : ℕ} (x : (⟨2, ![8192, c]⟩ : Shape).Idx → α)
    (hc : (⟨2, ![8192, c]⟩ : Shape).ShapeCasts ⟨3, ![64, 128, c]⟩) (p : Fin 64) (q : Fin 128) (h : Fin c) :
    shapeCast ⟨3, ![64, 128, c]⟩ x hc (ix3 p q h) = x (ix2 (pairRow p q) h) :=
  shapeCast_apply x hc _ _ (by
    rw [Shape.rowMajor_val_two, Shape.rowMajor_val_three]
    rfl)

end Layout

/-! ## The body's payload at an index -/

section Payload
variable (x0 : Vec Ideal S64x64 .f32) (x1 : Vec Ideal S128x64 .f32) (x2 : Vec Ideal S1x64 .f32)
  (x3 : Vec Ideal S64x32 .f32) (x4 x5 : Vec Ideal S1x32 .f32) (x6 : Vec Ideal S1x1 .f32)

/-- First layer of the loaded blocks at the pair (p, q) of their rows, coordinate h. -/
def blk1 (p : Fin 64) (q : Fin 128) (h : Fin 64) : EReal :=
  max (x0 (ix2 p h) - x1 (ix2 q h) + x2 (ix2 0 h)) 0

/-- Second layer of the loaded blocks at the pair (p, q), coordinate k. -/
def blk2 (p : Fin 64) (q : Fin 128) (k : Fin 32) : EReal :=
  max ((∑ h : Fin 64, blk1 x0 x1 x2 p q h * x3 (ix2 h k)) + x4 (ix2 0 k)) 0

/-- Third layer of the loaded blocks at the pair (p, q). -/
def blk3 (p : Fin 64) (q : Fin 128) : EReal :=
  max ((∑ k : Fin 32, blk2 x0 x1 x2 x3 x4 p q k * x5 (ix2 0 k)) + x6 (ix2 0 0)) 0

/-- The first layer's vector at (p, q, h): each block's row, and the bias row, brought to the common [64, 128, 64]
    layout by a cast that adds a unit axis and a broadcast along it; the difference plus the bias, clamped. -/
theorem layer1_apply (hc0 : S64x64.ShapeCasts S64x1x64) (hb0 : S64x1x64.Broadcasts S64x128x64)
    (hc1 : S128x64.ShapeCasts S1x128x64) (hb1 : S1x128x64.Broadcasts S64x128x64)
    (hc2 : S1x64.ShapeCasts S1x1x64) (hb2 : S1x1x64.Broadcasts S64x128x64)
    (p : Fin 64) (q : Fin 128) (h : Fin 64) :
    (maximumf (addf (subf (broadcastTo S64x128x64 (shapeCast S64x1x64 x0 hc0) hb0)
                          (broadcastTo S64x128x64 (shapeCast S1x128x64 x1 hc1) hb1))
                    (broadcastTo S64x128x64 (shapeCast S1x1x64 x2 hc2) hb2))
              (broadcast S64x128x64 (FloatOps.ofBits FTy.f32 0x00000000#32)) : FVec Ideal S64x128x64 .f32) (ix3 p q h)
      = blk1 x0 x1 x2 p q h :=
  congrArg₂ max
    (congrArg₂ (· + ·)
      (congrArg₂ (· - ·)
        ((bcast_a1c_apply _ hb0 p q h).trans (cast_a1c_apply x0 hc0 p 0 h))
        ((bcast_1bc_apply _ hb1 p q h).trans (shapeCast_ab_1ab_apply x1 hc1 0 q h)))
      ((bcast_11c_apply _ hb2 p q h).trans (cast_1c_11c_apply x2 hc2 0 0 h)))
    Ideal.ofBits_zero_f32

/-- The second layer's vector at (p, q, k), over any first-layer vector `v`: the pairs are laid out as rows, the
    product with the weight matrix is the plain sum over the 64 shared positions (the change of float format of both
    operands is the identity at the ideal values), and the rows are laid out as pairs again; plus the bias, clamped. -/
theorem layer2_apply (v : FVec Ideal S64x128x64 .f32) (hc : S64x128x64.ShapeCasts S8192x64)
    (hlt : FTy.bf16.bits < FTy.f32.bits) (hc' : S8192x32.ShapeCasts S64x128x32)
    (hc4 : S1x32.ShapeCasts S1x1x32) (hb4 : S1x1x32.Broadcasts S64x128x32)
    (p : Fin 64) (q : Fin 128) (k : Fin 32) :
    (maximumf (addf (shapeCast S64x128x32
                      (matmul dot_S8192x64_S64x32_S8192x32_1_0_0_1_n_n none
                        (truncf FTy.bf16 (shapeCast S8192x64 v hc) hlt) (truncf FTy.bf16 x3 hlt)
                        (constant S8192x32 FTy.f32 0x00000000#32)) hc')
                    (broadcastTo S64x128x32 (shapeCast S1x1x32 x4 hc4) hb4))
              (broadcast S64x128x32 (FloatOps.ofBits FTy.f32 0x00000000#32)) : FVec Ideal S64x128x32 .f32) (ix3 p q k)
      = max ((∑ h : Fin 64, v (ix3 p q h) * x3 (ix2 h k)) + x4 (ix2 0 k)) 0 := by
  refine congrArg₂ max (congrArg₂ (· + ·) ?_ ((bcast_11c_apply _ hb4 p q k).trans (cast_1c_11c_apply x4 hc4 0 0 k)))
    Ideal.ofBits_zero_f32
  refine (cast_rows_pairs_apply _ hc' p q k).trans ?_
  refine (rowsCols.matmul_zero_apply none _ _ (ix2 (pairRow p q) k)).trans ?_
  exact Finset.sum_congr rfl fun h _ => congrArg (· * x3 (ix2 h k)) (cast_pairs_rows_apply v hc p q h)

/-- The third layer's vector at (p, q), over any second-layer vector `v`: the products with the weight row summed
    over the 32 lanes, plus the one bias, clamped. -/
theorem layer3_apply (v : FVec Ideal S64x128x32 .f32) (hc5 : S1x32.ShapeCasts S1x1x32)
    (hb5 : S1x1x32.Broadcasts S64x128x32) (hr : S64x128x32.Reduces [2] S64x128) (hφ : FKind.Formats FTy.f32)
    (hacc : (0x00000000#32 : BitVec 32) = FKind.add.neutral FTy.f32 hφ) (hb6 : S1x1.Broadcasts S64x128)
    (p : Fin 64) (q : Fin 128) :
    (maximumf (addf (multiReduction (F := Ideal) FKind.add [2] S64x128
                      (mulf v (broadcastTo S64x128x32 (shapeCast S1x1x32 x5 hc5) hb5)) 0x00000000#32 hr hφ hacc)
                    (broadcastTo S64x128 x6 hb6))
              (broadcast S64x128 (FloatOps.ofBits FTy.f32 0x00000000#32)) : FVec Ideal S64x128 .f32) (ix2 p q)
      = max ((∑ k : Fin 32, v (ix3 p q k) * x5 (ix2 0 k)) + x6 (ix2 0 0)) 0 := by
  refine congrArg₂ max (congrArg₂ (· + ·) ?_ (bcast_11_apply x6 hb6 p q)) Ideal.ofBits_zero_f32
  refine (Ideal.multiReduction_add_single _ _ hr hφ hacc (ix2 p q)).trans ?_
  refine Finset.sum_congr rfl fun k _ => ?_
  have e : hr.lift (ix2 p q) k = ix3 p q k :=
    funext fun a => Fin.ext (match a with | ⟨0, _⟩ => rfl | ⟨1, _⟩ => rfl | ⟨2, _⟩ => rfl)
  show v (hr.lift (ix2 p q) k) * broadcastTo S64x128x32 (shapeCast S1x1x32 x5 hc5) hb5 (hr.lift (ix2 p q) k) = _
  rw [e]
  exact congrArg (v (ix3 p q k) * ·) ((bcast_11c_apply _ hb5 p q k).trans (cast_1c_11c_apply x5 hc5 0 0 k))

/-- THE PAYLOAD AT AN INDEX: entry (p, q) of the stored block is the three layers of the loaded blocks at the pair
    of row p of the first and row q of the second. -/
theorem pay_apply (p : Fin 64) (q : Fin 128) :
    k2_pay1 (k2_pay2 x0 x1 x2 x3 x4 x5 x6) (Scalar.ofBits .f32 0x00000000#32) (ix2 p q)
      = blk3 x0 x1 x2 x3 x4 x5 x6 p q := by
  unfold k2_pay1 k2_pay2
  simp only [shapeCast_self]
  refine (layer3_apply x5 x6 _ _ _ _ _ _ _ p q).trans ?_
  unfold blk3
  refine congrArg (max · 0) (congrArg (· + x6 (ix2 0 0)) (Finset.sum_congr rfl fun k _ => congrArg (· * x5 (ix2 0 k)) ?_))
  refine (layer2_apply x3 x4 _ _ _ _ _ _ p q k).trans ?_
  unfold blk2
  refine congrArg (max · 0) (congrArg (· + x4 (ix2 0 k)) (Finset.sum_congr rfl fun h _ => congrArg (· * x3 (ix2 h k)) ?_))
  exact layer1_apply x0 x1 x2 _ _ _ _ _ _ p q h

end Payload

/-! ## The blocks' layers are the whole arrays' layers at the blocks' rows -/

/-- Where each loaded block reads what the whole operands hold, the three layers of the blocks at (p, q) are the
    three layers of the whole arrays at the rows (n, m). -/
theorem blk3_eq_layer3 (x0 : Vec Ideal S64x64 .f32) (x1 : Vec Ideal S128x64 .f32) (x2 : Vec Ideal S1x64 .f32)
    (x3 : Vec Ideal S64x32 .f32) (x4 x5 : Vec Ideal S1x32 .f32) (x6 : Vec Ideal S1x1 .f32)
    (pa pb : Cert.Spec.Arr S1024x64) (b1 : Fin 64 → EReal) (w2 : Fin 32 → Fin 64 → EReal) (b2 : Fin 32 → EReal)
    (w3 : Fin 32 → EReal) (b3 : EReal) (p : Fin 64) (q : Fin 128) (n m : Fin 1024)
    (h0 : ∀ h : Fin 64, x0 (ix2 p h) = pa (ix2 n h)) (h1 : ∀ h : Fin 64, x1 (ix2 q h) = pb (ix2 m h))
    (h2 : ∀ h : Fin 64, x2 (ix2 0 h) = b1 h) (h3 : ∀ (h : Fin 64) (k : Fin 32), x3 (ix2 h k) = w2 k h)
    (h4 : ∀ k : Fin 32, x4 (ix2 0 k) = b2 k) (h5 : ∀ k : Fin 32, x5 (ix2 0 k) = w3 k) (h6 : x6 (ix2 0 0) = b3) :
    blk3 x0 x1 x2 x3 x4 x5 x6 p q = Cert.Spec.layer3 pa pb b1 w2 b2 w3 b3 n m := by
  unfold blk3 blk2 blk1 Cert.Spec.layer3 Cert.Spec.layer2 Cert.Spec.layer1
  simp only [h0, h1, h2, h3, h4, h5, h6]

/-- The payload at any index of the block, by its two coordinates. -/
theorem pay_apply_idx (x0 : Vec Ideal S64x64 .f32) (x1 : Vec Ideal S128x64 .f32) (x2 : Vec Ideal S1x64 .f32)
    (x3 : Vec Ideal S64x32 .f32) (x4 x5 : Vec Ideal S1x32 .f32) (x6 : Vec Ideal S1x1 .f32) (j : S64x128.Idx) :
    k2_pay1 (k2_pay2 x0 x1 x2 x3 x4 x5 x6) (Scalar.ofBits .f32 0x00000000#32) j
      = blk3 x0 x1 x2 x3 x4 x5 x6 (j 0) (j 1) :=
  (congrArg (k2_pay1 (k2_pay2 x0 x1 x2 x3 x4 x5 x6) (Scalar.ofBits .f32 0x00000000#32)) (eq_ix2 j)).trans
    (pay_apply x0 x1 x2 x3 x4 x5 x6 (j 0) (j 1))

/-! ## From blocks to the array -/

variable (V : (c : Dev nD) → (b : Ref sig .tc) → Buf (Elt Ideal) ((c : Thread nD τ).loc b))

/-- The three layers over every pair of rows of the arrays the region found. -/
abbrev target (c : Dev nD) : S1024x1024.Idx → EReal :=
  Cert.Spec.mlp (V c main_v1 : S1024x64.Idx → EReal) (V c main_v2 : S1024x64.Idx → EReal)
    (fun h => (V c main_v4 : S1x64.Idx → EReal) (ix2 0 h))
    (fun k h => (V c main_v3 : S64x32.Idx → EReal) (ix2 h k))
    (fun k => (V c main_v5 : S1x32.Idx → EReal) (ix2 0 k))
    (fun k => (V c main_arg6 : S1x32.Idx → EReal) (ix2 0 k))
    ((V c main_v6 : S1x1.Idx → EReal) (ix2 0 0))

/-- The printed index maps, decided over the grid: the first array's row block and the second array's row block are
    the output's row block and column block, the small operands are whole, and point t's output block is
    (t / 8, t mod 8). -/
theorem idx_facts : ∀ t : Fin cfg2.N,
    win2_0.index t (0 : Fin 2) = win2_7.index t (0 : Fin 2) ∧ win2_0.index t (1 : Fin 2) = 0
    ∧ win2_1.index t (0 : Fin 2) = win2_7.index t (1 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val / 8 ∧ win2_7.index t (1 : Fin 2) = t.val % 8 :=
  (by decide +kernel : ∀ t : Fin grid2.N, _)

/-- What point `t` writes back is block `t` of the three layers of the arrays the region found. -/
theorem flushed_eq (c : Dev nD) (t : Fin cfg2.N) :
    (dat2 V c).flushed 7 t = ((cfg2.win 7).blk t).view.read (Elt Ideal) (target V c) := by
  show (cfg2.win 7).cut (grid2.coords t) ((dat2 V c).after 7 t) = _
  rw [after2_7]
  unfold out2_7
  rw [View.canon_unit_zero hz]
  simp only [View.ld_unit_zero (S := S64x64) hz, View.ld_unit_zero (S := S128x64) hz,
    View.ld_unit_zero (S := S1x64) hz, View.ld_unit_zero (S := S64x32) hz, View.ld_unit_zero (S := S1x32) hz,
    View.ld_unit_zero (S := S1x1) hz]
  obtain ⟨e00, e01, e10, e11, e20, e21, e30, e31, e40, e41, e50, e51, e60, e61, e70, e71⟩ := idx_facts t
  funext j
  show k2_pay1 (k2_pay2 (iblk2 V c 0 t) (iblk2 V c 1 t) (iblk2 V c 2 t) (iblk2 V c 3 t) (iblk2 V c 4 t)
      (iblk2 V c 5 t) (iblk2 V c 6 t)) (Scalar.ofBits .f32 0x00000000#32) j
    = target V c (((cfg2.win 7).blk t).view.emb j)
  have h0 : ∀ h : Fin 64, (iblk2 V c 0 t : S64x64.Idx → EReal) (ix2 (j 0) h)
      = (V c main_v1 : S1024x64.Idx → EReal) (ix2 ((((cfg2.win 7).blk t).view.emb j) 0) h) := fun h => by
    show (V c main_v1 : S1024x64.Idx → EReal) (((cfg2.win 0).blk t).view.emb (ix2 (j 0) h)) = _
    congr 1
    funext a; apply Fin.ext
    match a with
    | ⟨0, _⟩ => show win2_0.index t (0 : Fin 2) * 64 + 1 * (j 0).val = win2_7.index t (0 : Fin 2) * 64 + 1 * (j 0).val; omega
    | ⟨1, _⟩ => show win2_0.index t (1 : Fin 2) * 64 + 1 * h.val = h.val; omega
  have h1 : ∀ h : Fin 64, (iblk2 V c 1 t : S128x64.Idx → EReal) (ix2 (j 1) h)
      = (V c main_v2 : S1024x64.Idx → EReal) (ix2 ((((cfg2.win 7).blk t).view.emb j) 1) h) := fun h => by
    show (V c main_v2 : S1024x64.Idx → EReal) (((cfg2.win 1).blk t).view.emb (ix2 (j 1) h)) = _
    congr 1
    funext a; apply Fin.ext
    match a with
    | ⟨0, _⟩ => show win2_1.index t (0 : Fin 2) * 128 + 1 * (j 1).val = win2_7.index t (1 : Fin 2) * 128 + 1 * (j 1).val; omega
    | ⟨1, _⟩ => show win2_1.index t (1 : Fin 2) * 64 + 1 * h.val = h.val; omega
  have h2 : ∀ h : Fin 64, (iblk2 V c 2 t : S1x64.Idx → EReal) (ix2 0 h) = (V c main_v4 : S1x64.Idx → EReal) (ix2 0 h) := fun h => by
    show (V c main_v4 : S1x64.Idx → EReal) (((cfg2.win 2).blk t).view.emb (ix2 0 h)) = _
    congr 1
    funext a; apply Fin.ext
    match a with
    | ⟨0, _⟩ => show win2_2.index t (0 : Fin 2) * 1 + 1 * 0 = 0; omega
    | ⟨1, _⟩ => show win2_2.index t (1 : Fin 2) * 64 + 1 * h.val = h.val; omega
  have h3 : ∀ (h : Fin 64) (k : Fin 32), (iblk2 V c 3 t : S64x32.Idx → EReal) (ix2 h k)
      = (V c main_v3 : S64x32.Idx → EReal) (ix2 h k) := fun h k => by
    show (V c main_v3 : S64x32.Idx → EReal) (((cfg2.win 3).blk t).view.emb (ix2 h k)) = _
    congr 1
    funext a; apply Fin.ext
    match a with
    | ⟨0, _⟩ => show win2_3.index t (0 : Fin 2) * 64 + 1 * h.val = h.val; omega
    | ⟨1, _⟩ => show win2_3.index t (1 : Fin 2) * 32 + 1 * k.val = k.val; omega
  have h4 : ∀ k : Fin 32, (iblk2 V c 4 t : S1x32.Idx → EReal) (ix2 0 k) = (V c main_v5 : S1x32.Idx → EReal) (ix2 0 k) := fun k => by
    show (V c main_v5 : S1x32.Idx → EReal) (((cfg2.win 4).blk t).view.emb (ix2 0 k)) = _
    congr 1
    funext a; apply Fin.ext
    match a with
    | ⟨0, _⟩ => show win2_4.index t (0 : Fin 2) * 1 + 1 * 0 = 0; omega
    | ⟨1, _⟩ => show win2_4.index t (1 : Fin 2) * 32 + 1 * k.val = k.val; omega
  have h5 : ∀ k : Fin 32, (iblk2 V c 5 t : S1x32.Idx → EReal) (ix2 0 k) = (V c main_arg6 : S1x32.Idx → EReal) (ix2 0 k) := fun k => by
    show (V c main_arg6 : S1x32.Idx → EReal) (((cfg2.win 5).blk t).view.emb (ix2 0 k)) = _
    congr 1
    funext a; apply Fin.ext
    match a with
    | ⟨0, _⟩ => show win2_5.index t (0 : Fin 2) * 1 + 1 * 0 = 0; omega
    | ⟨1, _⟩ => show win2_5.index t (1 : Fin 2) * 32 + 1 * k.val = k.val; omega
  have h6 : (iblk2 V c 6 t : S1x1.Idx → EReal) (ix2 0 0) = (V c main_v6 : S1x1.Idx → EReal) (ix2 0 0) := by
    show (V c main_v6 : S1x1.Idx → EReal) (((cfg2.win 6).blk t).view.emb (ix2 0 0)) = _
    congr 1
    funext a; apply Fin.ext
    match a with
    | ⟨0, _⟩ => show win2_6.index t (0 : Fin 2) * 1 + 1 * 0 = 0; omega
    | ⟨1, _⟩ => show win2_6.index t (1 : Fin 2) * 1 + 1 * 0 = 0; omega
  refine (pay_apply_idx (iblk2 V c 0 t) (iblk2 V c 1 t) (iblk2 V c 2 t) (iblk2 V c 3 t) (iblk2 V c 4 t) (iblk2 V c 5 t)
    (iblk2 V c 6 t) j).trans ?_
  exact blk3_eq_layer3 (iblk2 V c 0 t) (iblk2 V c 1 t) (iblk2 V c 2 t) (iblk2 V c 3 t) (iblk2 V c 4 t) (iblk2 V c 5 t)
    (iblk2 V c 6 t) (V c main_v1) (V c main_v2) (fun h => (V c main_v4 : S1x64.Idx → EReal) (ix2 0 h))
    (fun k h => (V c main_v3 : S64x32.Idx → EReal) (ix2 h k)) (fun k => (V c main_v5 : S1x32.Idx → EReal) (ix2 0 k))
    (fun k => (V c main_arg6 : S1x32.Idx → EReal) (ix2 0 k)) ((V c main_v6 : S1x1.Idx → EReal) (ix2 0 0))
    (j 0) (j 1) ((((cfg2.win 7).blk t).view.emb j) 0) ((((cfg2.win 7).blk t).view.emb j) 1) h0 h1 h2 h3 h4 h5 h6

/-- An index of the output array is in point `t`'s block iff each coordinate is in the block's range on its axis. -/
theorem mem_blk (t : Fin cfg2.N) (i : S1024x1024.Idx) :
    i ∈ ((cfg2.win 7).blk t).view.set ↔ ∀ a : Fin 2, win2_7.index t a * S64x128.size a ≤ (i a).val
      ∧ (i a).val < win2_7.index t a * S64x128.size a + S64x128.size a := by
  show i ∈ ((View.whole main_v7).slice (win2_7.rect t)).set ↔ _
  rw [View.set_slice_whole, Rect.mem_set_unit]
  exact Iff.rfl

theorem main_final (c : Dev nD) :
    ((dat2 V c).arrAt 7 cfg2.N : S1024x1024.Idx → EReal)
      = Cert.Spec.mlp (V c main_v1 : S1024x64.Idx → EReal) (V c main_v2 : S1024x64.Idx → EReal)
          (fun h => (V c main_v4 : S1x64.Idx → EReal) (ix2 0 h))
          (fun k h => (V c main_v3 : S64x32.Idx → EReal) (ix2 h k))
          (fun k => (V c main_v5 : S1x32.Idx → EReal) (ix2 0 k))
          (fun k => (V c main_arg6 : S1x32.Idx → EReal) (ix2 0 k))
          ((V c main_v6 : S1x1.Idx → EReal) (ix2 0 0)) :=
  (dat2 V c).arrAt_eq_of_cover 7 _ (fun t _ => flushed_eq V c t) fun i => by
    have hi0 : (i 0).val < 1024 := (i 0).isLt
    have hi1 : (i 1).val < 1024 := (i 1).isLt
    obtain ⟨e00, e01, e10, e11, e20, e21, e30, e31, e40, e41, e50, e51, e60, e61, e70, e71⟩ :=
      idx_facts (⟨(i 0).val / 64 * 8 + (i 1).val / 128, by show _ < 128; omega⟩ : Fin cfg2.N)
    have q0 : ((i 0).val / 64 * 8 + (i 1).val / 128) / 8 = (i 0).val / 64 := by omega
    have q1 : ((i 0).val / 64 * 8 + (i 1).val / 128) % 8 = (i 1).val / 128 := by omega
    refine ⟨⟨(i 0).val / 64 * 8 + (i 1).val / 128, by show _ < 128; omega⟩, flush2_7 _, ?_⟩
    rw [mem_blk]
    intro a
    match a with
    | ⟨0, _⟩ =>
      show win2_7.index _ (0 : Fin 2) * 64 ≤ (i 0).val ∧ (i 0).val < win2_7.index _ (0 : Fin 2) * 64 + 64
      rw [e70, q0]; omega
    | ⟨1, _⟩ =>
      show win2_7.index _ (1 : Fin 2) * 128 ≤ (i 1).val ∧ (i 1).val < win2_7.index _ (1 : Fin 2) * 128 + 128
      rw [e71, q1]; omega

end Cert.KernelIdeal.Hand

end
-- ==== Proof.KValue.lean ====
/-
  The result array of the idealized kernel program as a function of its eight argument arrays: the last region's
  output is the three layers of the arrays that region found, and each of those arrays, walked back through the
  program, is a projection, a transposed or re-laid argument, or an argument itself.
-/
import proofs.«143582_j54743653155010_1_alg».proof.Proof.KChain
import proofs.«143582_j54743653155010_1_alg».proof.Proof.KMain

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Chain

open Cert.KernelIdeal Cert.KernelIdeal.Gen Idealize.ShloMosaic.StableHlo

variable (m : (ℓ : Loc nD τ sig) → Buf (Elt Ideal) ℓ) (ρ : Dev nD → PrngReg)

/-- The result array after the run is the specification's function of the arguments as launched. -/
theorem kernel_value (c : Dev nD) :
    (W5 m ρ c (Proc.devRef .tc main_v7) : S1024x1024.Idx → EReal)
      = Cert.Spec.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine ((W5_arr m ρ c 7).trans (Cert.KernelIdeal.Hand.main_final (V4 m ρ) c)).trans ?_
  unfold Cert.Spec.result
  rw [V4_v1 m ρ c, V4_v2 m ρ c, V4_arg6 m ρ c, V4_v6_apply m ρ c,
    funext (V4_v4_apply m ρ c), funext (V4_v5_apply m ρ c),
    show (fun k h => (V4 m ρ c main_v3 : S64x32.Idx → EReal) (ix2 h k))
      = fun k h => (m ((c : Thread nD τ).loc main_arg4) : S32x64.Idx → EReal) (ix2 k h) from
      funext fun k => funext fun h => V4_v3_apply m ρ c h k]

end Cert.KernelIdeal.Chain

end
-- ==== Proof.Ref.lean ====
/-
  The reference program's result, read entry by entry, is the specification's function of the arguments.

  The reference is one line of host operations over whole arrays: two rows-by-rows products with W1, the two
  projections broadcast over each other's row axis and subtracted, and three times a bias broadcast along the last
  axis, added, the sum clamped below at zero, with a contraction of the last axis against W2 and then W3 in
  between; a last re-laying drops the trailing axis of extent one. At entry (n, m) each broadcast reads its operand
  at the coordinates it keeps, each contraction is the plain sum over the shared axis, and the zero the clamps
  compare with is the extended real 0: layer by layer these are `layer1`, `layer2`, `layer3` of the two projections.
-/
import proofs.«143582_j54743653155010_1_alg».proof.Proof.Gen.ReferenceIdeal.Read
import proofs.«143582_j54743653155010_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Read

/-- The first array's projection at (n, h): row n of the array contracted with row h of the weight matrix. -/
theorem v0_at (x0 : S1024x1600.Idx → EReal) (x2 : S64x1600.Idx → EReal) (n : Fin 1024) (h : Fin 64) :
    val_main_v0 (F := Ideal) x0 x2 (ix2 n h) = Cert.Spec.proj x0 x2 (ix2 n h) := by
  rw [val_main_v0_apply]
  unfold Cert.Spec.proj
  refine Finset.sum_congr rfl fun d _ => ?_
  have e1 : lidx_main_v0 (ix2 n h) d = ix2 n d :=
    funext fun a => Fin.ext (by match a with | ⟨0, _⟩ => rfl | ⟨1, _⟩ => rfl)
  have e2 : ridx_main_v0 (ix2 n h) d = ix2 h d :=
    funext fun a => Fin.ext (by match a with | ⟨0, _⟩ => rfl | ⟨1, _⟩ => rfl)
  rw [e1, e2]

/-- The second array's projection at (m, h), by the same weight matrix. -/
theorem v1_at (x1 : S1024x1600.Idx → EReal) (x2 : S64x1600.Idx → EReal) (m : Fin 1024) (h : Fin 64) :
    val_main_v1 (F := Ideal) x1 x2 (ix2 m h) = Cert.Spec.proj x1 x2 (ix2 m h) := by
  rw [val_main_v1_apply]
  unfold Cert.Spec.proj
  refine Finset.sum_congr rfl fun d _ => ?_
  have e1 : lidx_main_v1 (ix2 m h) d = ix2 m d :=
    funext fun a => Fin.ext (by match a with | ⟨0, _⟩ => rfl | ⟨1, _⟩ => rfl)
  have e2 : ridx_main_v1 (ix2 m h) d = ix2 h d :=
    funext fun a => Fin.ext (by match a with | ⟨0, _⟩ => rfl | ⟨1, _⟩ => rfl)
  rw [e1, e2]

/-- The first layer at the pair (n, m), coordinate h: both projections are broadcast over the pair's other member,
    subtracted, the bias added along the last axis, and the sum clamped below at zero. -/
theorem v10_at (x0 x1 : S1024x1600.Idx → EReal) (x2 : S64x1600.Idx → EReal) (x3 : S64.Idx → EReal)
    (n m : Fin 1024) (h : Fin 64) :
    val_main_v10 (F := Ideal) x0 x1 x2 x3 (ix3 n m h)
      = Cert.Spec.layer1 (Cert.Spec.proj x0 x2) (Cert.Spec.proj x1 x2) (fun h => x3 (ix1 h)) n m h := by
  have e4 : idx_main_v2 (idx_main_v4 (ix3 n m h)) = ix2 n h :=
    funext fun a => Fin.ext (by match a with | ⟨0, _⟩ => rfl | ⟨1, _⟩ => rfl)
  have e5 : idx_main_v3 (idx_main_v5 (ix3 n m h)) = ix2 m h :=
    funext fun a => Fin.ext (by match a with | ⟨0, _⟩ => rfl | ⟨1, _⟩ => rfl)
  have e8 : idx_main_v7 (idx_main_v8 (ix3 n m h)) = ix1 h :=
    funext fun a => Fin.ext (by match a with | ⟨0, _⟩ => rfl)
  rw [val_main_v10_apply, val_main_v9_apply, val_main_v6_apply, val_main_v4_apply, val_main_v2_apply,
    val_main_v5_apply, val_main_v3_apply, val_main_v8_apply, val_main_v7_apply, val_main_call0_v0_apply,
    val_main_call0_cst_apply, e4, e5, e8, v0_at, v1_at]
  show max (_ - _ + _) (Ideal.ofBits .f32 0x00000000#32) = _
  rw [Ideal.ofBits_zero_f32]
  rfl

/-- The second layer at the pair (n, m), coordinate k: the first layer's 64 numbers contracted with row k of the
    second weight matrix, the bias added along the last axis, and the sum clamped below at zero. -/
theorem v15_at (x0 x1 : S1024x1600.Idx → EReal) (x2 : S64x1600.Idx → EReal) (x3 : S64.Idx → EReal)
    (x4 : S32x64.Idx → EReal) (x5 : S32.Idx → EReal) (n m : Fin 1024) (k : Fin 32) :
    val_main_v15 (F := Ideal) x0 x1 x2 x3 x4 x5 (ix3 n m k)
      = Cert.Spec.layer2 (Cert.Spec.proj x0 x2) (Cert.Spec.proj x1 x2) (fun h => x3 (ix1 h))
          (fun k h => x4 (ix2 k h)) (fun k => x5 (ix1 k)) n m k := by
  have e13 : idx_main_v12 (idx_main_v13 (ix3 n m k)) = ix1 k :=
    funext fun a => Fin.ext (by match a with | ⟨0, _⟩ => rfl)
  have hsum : val_main_v11 (F := Ideal) x0 x1 x2 x3 x4 (ix3 n m k)
      = ∑ h : Fin 64, Cert.Spec.layer1 (Cert.Spec.proj x0 x2) (Cert.Spec.proj x1 x2) (fun h => x3 (ix1 h)) n m h
          * x4 (ix2 k h) := by
    rw [val_main_v11_apply]
    refine Finset.sum_congr rfl fun h _ => ?_
    have el : lidx_main_v11 (ix3 n m k) h = ix3 n m h :=
      funext fun a => Fin.ext (by match a with | ⟨0, _⟩ => rfl | ⟨1, _⟩ => rfl | ⟨2, _⟩ => rfl)
    have er : ridx_main_v11 (ix3 n m k) h = ix2 k h :=
      funext fun a => Fin.ext (by match a with | ⟨0, _⟩ => rfl | ⟨1, _⟩ => rfl)
    rw [el, er, v10_at]
  rw [val_main_v15_apply, val_main_v14_apply, val_main_v13_apply, val_main_v12_apply, val_main_call1_v0_apply,
    val_main_call1_cst_apply, e13, hsum]
  show max (_ + _) (Ideal.ofBits .f32 0x00000000#32) = _
  rw [Ideal.ofBits_zero_f32]
  rfl

/-- The third layer at the pair (n, m): the second layer's 32 numbers contracted with the one row of the third
    weight matrix, the one bias added, and the sum clamped below at zero. -/
theorem v20_at (x0 x1 : S1024x1600.Idx → EReal) (x2 : S64x1600.Idx → EReal) (x3 : S64.Idx → EReal)
    (x4 : S32x64.Idx → EReal) (x5 : S32.Idx → EReal) (x6 : S1x32.Idx → EReal) (x7 : S1.Idx → EReal)
    (n m : Fin 1024) :
    val_main_v20 (F := Ideal) x0 x1 x2 x3 x4 x5 x6 x7 (ix3 n m (0 : Fin 1))
      = Cert.Spec.layer3 (Cert.Spec.proj x0 x2) (Cert.Spec.proj x1 x2) (fun h => x3 (ix1 h))
          (fun k h => x4 (ix2 k h)) (fun k => x5 (ix1 k)) (fun k => x6 (ix2 0 k)) (x7 (ix1 0)) n m := by
  have e18 : idx_main_v17 (idx_main_v18 (ix3 n m (0 : Fin 1))) = ix1 0 :=
    funext fun a => Fin.ext (by match a with | ⟨0, _⟩ => rfl)
  have hsum : val_main_v16 (F := Ideal) x0 x1 x2 x3 x4 x5 x6 (ix3 n m (0 : Fin 1))
      = ∑ k : Fin 32, Cert.Spec.layer2 (Cert.Spec.proj x0 x2) (Cert.Spec.proj x1 x2) (fun h => x3 (ix1 h))
          (fun k h => x4 (ix2 k h)) (fun k => x5 (ix1 k)) n m k * x6 (ix2 0 k) := by
    rw [val_main_v16_apply]
    refine Finset.sum_congr rfl fun k _ => ?_
    have el : lidx_main_v16 (ix3 n m (0 : Fin 1)) k = ix3 n m k :=
      funext fun a => Fin.ext (by match a with | ⟨0, _⟩ => rfl | ⟨1, _⟩ => rfl | ⟨2, _⟩ => rfl)
    have er : ridx_main_v16 (ix3 n m (0 : Fin 1)) k = ix2 0 k :=
      funext fun a => Fin.ext (by match a with | ⟨0, _⟩ => rfl | ⟨1, _⟩ => rfl)
    rw [el, er, v15_at]
  rw [val_main_v20_apply, val_main_v19_apply, val_main_v18_apply, val_main_v17_apply, val_main_call2_v0_apply,
    val_main_call2_cst_apply, e18, hsum]
  show max (_ + _) (Ideal.ofBits .f32 0x00000000#32) = _
  rw [Ideal.ofBits_zero_f32]
  rfl

/-- The reference's result term is the specification's function of the eight arguments. -/
theorem ref_eq (x0 x1 : S1024x1600.Idx → EReal) (x2 : S64x1600.Idx → EReal) (x3 : S64.Idx → EReal)
    (x4 : S32x64.Idx → EReal) (x5 : S32.Idx → EReal) (x6 : S1x32.Idx → EReal) (x7 : S1.Idx → EReal) :
    (val_main_v21 (F := Ideal) x0 x1 x2 x3 x4 x5 x6 x7 : S1024x1024.Idx → EReal)
      = Cert.Spec.result x0 x1 x2 x3 x4 x5 x6 x7 := by
  funext i
  obtain ⟨n, m, rfl⟩ : ∃ (n m : Fin 1024), i = ix2 n m := ⟨i 0, i 1, eq_ix2 i⟩
  -- dropping the trailing axis of extent one: entry (n, m) is entry (n, m, 0)
  have e21 : idx_main_v21 (ix2 n m) = ix3 n m (0 : Fin 1) :=
    funext fun a => Fin.ext (by
      have hn : n.val < 1024 := n.isLt
      have hm : m.val < 1024 := m.isLt
      match a with
      | ⟨0, _⟩ => show (n.val * 1024 + m.val) / 1024 = n.val; omega
      | ⟨1, _⟩ => show (n.val * 1024 + m.val) / 1 % 1024 = m.val; omega
      | ⟨2, _⟩ => rfl)
  rw [val_main_v21_apply, e21, v20_at]
  rfl

end Cert.ReferenceIdeal.Hand

end
-- ==== Proof.lean ====
/-
  The certificate's claims, assembled.

  Both programs compute, on the extended reals, one function of the eight argument arrays (`Cert.Spec.result`): two
  arrays of 1024 rows are projected by the same 64 × 1600 weight matrix, and for every pair of a row of the first
  projection and a row of the second, three layers follow — difference plus bias, a 64 → 32 contraction plus bias,
  a 32 → 1 contraction plus bias, each clamped below at zero. The kernel program computes the projections a block of
  256 rows at a time against the transposed weight matrix and the layers a 64 × 128 block of pairs at a time; the
  reference computes whole arrays. A sum over a shared axis is the same extended real however its array is tiled, a
  change of float format is the identity at the ideal values, and a product into a zero accumulator is the plain sum:
  no algebraic law beyond these is needed, so the precondition is not opened.
  The idealization rewrote no operation, so there is nothing to preserve beyond the program's own text.
-/
import proofs.«143582_j54743653155010_1_alg».proof.Defs
import proofs.«143582_j54743653155010_1_alg».proof.Proof.Gen.Kernel
import proofs.«143582_j54743653155010_1_alg».proof.Proof.Gen.Kernel.Skeleton
import proofs.«143582_j54743653155010_1_alg».proof.Proof.Gen.Kernel.Launch
import proofs.«143582_j54743653155010_1_alg».proof.Proof.Gen.Kernel.Points
import proofs.«143582_j54743653155010_1_alg».proof.Proof.Gen.Kernel.Frame
import proofs.«143582_j54743653155010_1_alg».proof.Proof.Gen.KernelIdeal
import proofs.«143582_j54743653155010_1_alg».proof.Proof.Gen.KernelIdeal.Skeleton
import proofs.«143582_j54743653155010_1_alg».proof.Proof.Gen.KernelIdeal.Launch
import proofs.«143582_j54743653155010_1_alg».proof.Proof.Gen.KernelIdeal.Points
import proofs.«143582_j54743653155010_1_alg».proof.Proof.Gen.KernelIdeal.Frame
import proofs.«143582_j54743653155010_1_alg».proof.Proof.Gen.ReferenceIdeal
import proofs.«143582_j54743653155010_1_alg».proof.Proof.Gen.Pre_finite_inputs
import proofs.«143582_j54743653155010_1_alg».proof.Proof.Gen.ReferenceIdeal.Run
import proofs.«143582_j54743653155010_1_alg».proof.Proof.Gen.ReferenceIdeal.Read
import proofs.«143582_j54743653155010_1_alg».proof.Proof.KRun
import proofs.«143582_j54743653155010_1_alg».proof.Proof.KChain
import proofs.«143582_j54743653155010_1_alg».proof.Proof.KValue
import proofs.«143582_j54743653155010_1_alg».proof.Proof.Ref
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result array at the one function of the
    arguments: the kernel program's last region's output walked back through its regions, the reference's composed
    term read entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.kernel_value m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    refine ((Cert.ReferenceIdeal.Read.val_main_v21_eq (F := Ideal) _ _ _ _ _ _ _ _).trans
      (Cert.ReferenceIdeal.Hand.ref_eq _ _ _ _ _ _ _ _)).trans ?_
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
